-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 122
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S5000x128_S128x64_S5000x64_1_0_0_1_n_n_wf : DotDims.WF S5000x128 S128x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.RowTiles0.lean ====
/-
  The first layer's product, read off the pipeline.

  The first pallas_call computes `h = x · W1` for `x : [100000, 128]`, `W1 : [128, 64]` in 20 row tiles of 5000 rows:
  at grid point `t` the body loads rows `5000 t … 5000 t + 4999` of `x` and all of `W1`, narrows both to bf16 (the
  identity on extended reals), multiplies them into a zero accumulator and stores the 5000 × 64 tile of the
  result. Over the extended reals entry `(p, q)` of that tile is `∑ k < 128, x[5000 t + p, k] · W1[k, q]`, which is
  entry `(5000 t + p, q)` of the whole product `x · W1` as the host's `dot_general` computes it: the same finite
  sum, the contracted axis enumerated by `Fin 128` on both sides. The 20 tiles cover the rows `0 … 99999` (row `r`
  lies in tile `r / 5000`), so the array the region leaves is the whole product of the arrays it found.
  Nothing here needs the inputs finite: no sum is regrouped and no factor moves across a sum.
-/
import proofs.«141732_j10264971837865_1_alg».proof.Proof.Gen.KernelIdeal.Frame
import proofs.«141732_j10264971837865_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RowTiles0

open Idealize.ShloMosaic Idealize.ShloMosaic.TcCoe Idealize.SL.Sem
open Idealize.ShloMosaic.Pipeline (Dat)
open Cert.KernelIdeal Cert.KernelIdeal.Gen

/-- The offset `(0, 0)` is the zero offset. -/
theorem origin : (![0, 0] : Fin 2 → Nat) = fun _ => 0 := funext fun a => by fin_cases a <;> rfl

/-! ## A tile's payload as a finite sum -/

theorem tile_lhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem tile_lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem tile_rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem tile_rhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Row `j 0` of the tile of `x`, at column `k`. -/
abbrev tileRow (j : S5000x64.Idx) (k : Fin 128) : S5000x128.Idx := fun a => match a with
  | ⟨0, _⟩ => ⟨(j 0).val, (j 0).isLt⟩
  | ⟨1, _⟩ => ⟨k.val, k.isLt⟩
/-- Column `j 1` of the weights, at row `k`. -/
abbrev weightCol (j : S5000x64.Idx) (k : Fin 128) : S128x64.Idx := fun a => match a with
  | ⟨0, _⟩ => ⟨k.val, k.isLt⟩
  | ⟨1, _⟩ => ⟨(j 1).val, (j 1).isLt⟩

/-- What the body stores, at an entry of the tile: the narrowing to bf16 is the identity on extended reals and the
    accumulator is zero, so the entry is the row of the tile of `x` times the column of the weights. -/
theorem tile_product (xb : Vec Ideal S5000x128 .f32) (wb : Vec Ideal S128x64 .f32) (j : S5000x64.Idx) :
    k0_pay1 (F := Ideal) xb wb j = ∑ k : Fin 128, xb (tileRow j k) * wb (weightCol j k) := by
  unfold k0_pay1
  show FloatOps.matmul (F := Ideal) dot_S5000x128_S128x64_S5000x64_1_0_0_1_n_n none xb wb (constant (F := Ideal) S5000x64 .f32 0x00000000#32) j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = tileRow j k := funext fun a => Fin.ext (by
    match a with
    | ⟨0, _⟩ => exact tile_lhs_0 _ _
    | ⟨1, _⟩ => exact (tile_lhs_1 _ _).trans hk)
  have er : dot_S5000x128_S128x64_S5000x64_1_0_0_1_n_n.rhsIdx j ((ValueIdx.contrEquiv1 dot_S5000x128_S128x64_S5000x64_1_0_0_1_n_n 128 rfl rfl).symm k) = weightCol j k := funext fun a => Fin.ext (by
    match a with
    | ⟨0, _⟩ => exact (tile_rhs_0 _ _).trans hk
    | ⟨1, _⟩ => exact tile_rhs_1 _ _)
  rw [el, er]

/-! ## The whole product as a finite sum -/

theorem full_lhs_0 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem full_lhs_1 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem full_rhs_0 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem full_rhs_1 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-- Row `i 0` of `x`, at column `k`. -/
abbrev fullRow (i : S100000x64.Idx) (k : Fin 128) : S100000x128.Idx := fun a => match a with
  | ⟨0, _⟩ => ⟨(i 0).val, (i 0).isLt⟩
  | ⟨1, _⟩ => ⟨k.val, k.isLt⟩
/-- Column `i 1` of the weights, at row `k`. -/
abbrev fullCol (i : S100000x64.Idx) (k : Fin 128) : S128x64.Idx := fun a => match a with
  | ⟨0, _⟩ => ⟨k.val, k.isLt⟩
  | ⟨1, _⟩ => ⟨(i 1).val, (i 1).isLt⟩

/-- The host's product of the whole arrays, at an entry: row times column. -/
theorem full_product (x : FVec Ideal S100000x128 .f32) (w : FVec Ideal S128x64 .f32) (i : S100000x64.Idx) :
    Host.dotGeneral (F := Ideal) Cert.ReferenceIdeal.dot_S100000x128_S128x64_S100000x64_1_0_0_1_n_n none x w i = ∑ k : Fin 128, x (fullRow i k) * w (fullCol i k) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx i ((ValueIdx.contrEquiv1 Cert.ReferenceIdeal.dot_S100000x128_S128x64_S100000x64_1_0_0_1_n_n 128 rfl rfl).symm k) = fullRow i k := funext fun a => Fin.ext (by
    match a with
    | ⟨0, _⟩ => exact full_lhs_0 _ _
    | ⟨1, _⟩ => exact (full_lhs_1 _ _).trans hk)
  have er : Cert.ReferenceIdeal.dot_S100000x128_S128x64_S100000x64_1_0_0_1_n_n.rhsIdx i ((ValueIdx.contrEquiv1 Cert.ReferenceIdeal.dot_S100000x128_S128x64_S100000x64_1_0_0_1_n_n 128 rfl rfl).symm k) = fullCol i k := funext fun a => Fin.ext (by
    match a with
    | ⟨0, _⟩ => exact (full_rhs_0 _ _).trans hk
    | ⟨1, _⟩ => exact full_rhs_1 _ _)
  rw [el, er]

/-! ## From tiles to the array -/

variable (V : (c : Dev nD) → (b : Ref sig .tc) → Buf (Elt Ideal) ((c : Thread nD τ).loc b))

/-- The printed index maps over the grid: the tile of `x` moves with the output tile down the rows, the weights
    stay, and both column block indices are 0. -/
theorem tile_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 20 row tiles is some point's. -/
theorem tile_onto : ∀ q : Fin 20, ∃ t : Fin cfg0.N, win0_2.index t = ![q.val, 0] :=
  (by decide +kernel : ∀ q : Fin 20, ∃ t : Fin grid0.N, win0_2.index t = ![q.val, 0])

/-- What point `t` writes back is tile `t` of the whole product of the arrays the region found. -/
theorem tile_written (c : Dev nD) (t : Fin cfg0.N) :
    (dat0 V c).flushed 2 t
      = ((cfg0.win 2).blk t).view.read (Elt Ideal) (Host.dotGeneral (F := Ideal) (φ₁ := .f32) (φ₂ := .f32) Cert.ReferenceIdeal.dot_S100000x128_S128x64_S100000x64_1_0_0_1_n_n none (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x64) origin]
  obtain ⟨e0, e1, e2, e3, e4⟩ := tile_indices t
  funext j
  refine (tile_product (iblk0 V c 0 t) (iblk0 V c 1 t) j).trans ?_
  refine Eq.trans ?_ (full_product (V c main_arg0) (V c main_arg2) (((cfg0.win 2).blk t).view.emb j)).symm
  refine Finset.sum_congr rfl fun k _ => ?_
  have hx : iblk0 V c 0 t (tileRow j k) = V c main_arg0 (fullRow (((cfg0.win 2).blk t).view.emb j) k) := by
    show V c main_arg0 (((cfg0.win 0).blk t).view.emb (tileRow j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (weightCol j k) = V c main_arg2 (fullCol (((cfg0.win 2).blk t).view.emb j) k) := by
    show V c main_arg2 (((cfg0.win 1).blk t).view.emb (weightCol j k)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hx, hw]

/-- An index of the result is in point `t`'s tile iff each coordinate is in the tile's range on its axis. -/
theorem mem_tile (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v7).slice (win0_2.rect t)).set ↔ _
  rw [View.set_slice_whole, Rect.mem_set_unit]
  exact Iff.rfl

/-- Row `r` lies in tile `r / 5000`: the tiles cover the result. -/
theorem tiles_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := tile_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE ARRAY the first region leaves: the whole product `x · W1` of the arrays it found. -/
theorem product_array (c : Dev nD) :
    (dat0 V c).arrAt 2 cfg0.N = Host.dotGeneral (F := Ideal) (φ₁ := .f32) (φ₂ := .f32) Cert.ReferenceIdeal.dot_S100000x128_S128x64_S100000x64_1_0_0_1_n_n none (V c main_arg0) (V c main_arg2) :=
  (dat0 V c).arrAt_eq_of_cover 2 _ (fun t _ => tile_written V c t) tiles_cover

end Cert.KernelIdeal.RowTiles0

end
-- ==== Proof.RowTiles1.lean ====
/-
  The second layer's product, read off the pipeline.

  The second pallas_call computes `z = h · W2` for the hidden features `h : [100000, 64]` (the first convolution's
  output after the relu, as the host operations before the region left it) and `W2 : [64, 32]`, again in 20 row tiles
  of 5000 rows. At grid point `t` the body loads rows `5000 t … 5000 t + 4999` of `h` (through a shape cast to the
  same shape, which changes nothing) and all of `W2`, narrows both to bf16 (the identity on extended reals),
  multiplies them into a zero accumulator and stores the 5000 × 32 tile. Entry `(p, q)` of the tile is
  `∑ k < 64, h[5000 t + p, k] · W2[k, q]`: entry `(5000 t + p, q)` of the host's product `h · W2`, the contracted axis
  enumerated by `Fin 64` on both sides. The 20 tiles cover the rows, so the array the region leaves is the whole
  product of the arrays it found. No finiteness is used.
-/
import proofs.«141732_j10264971837865_1_alg».proof.Proof.Gen.KernelIdeal.Frame
import proofs.«141732_j10264971837865_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.RowTiles1

open Idealize.ShloMosaic Idealize.ShloMosaic.TcCoe Idealize.SL.Sem
open Idealize.ShloMosaic.Pipeline (Dat)
open Cert.KernelIdeal Cert.KernelIdeal.Gen

/-- The offset `(0, 0)` is the zero offset. -/
theorem origin : (![0, 0] : Fin 2 → Nat) = fun _ => 0 := funext fun a => by fin_cases a <;> rfl

/-! ## A tile's payload as a finite sum -/

theorem tile_lhs_0 (j : S5000x32.Idx) (q : dot_S5000x64_S64x32_S5000x32_1_0_0_1_n_n.contr.Idx) :
    (dot_S5000x64_S64x32_S5000x32_1_0_0_1_n_n.lhsIdx j q 0).val = (j 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem tile_lhs_1 (j : S5000x32.Idx) (q : dot_S5000x64_S64x32_S5000x32_1_0_0_1_n_n.contr.Idx) :
    (dot_S5000x64_S64x32_S5000x32_1_0_0_1_n_n.lhsIdx j q 1).val = (q ⟨0, by decide⟩).val :=
  dot_S5000x64_S64x32_S5000x32_1_0_0_1_n_n.lhsIdx_val_of_single rfl j q
theorem tile_rhs_0 (j : S5000x32.Idx) (q : dot_S5000x64_S64x32_S5000x32_1_0_0_1_n_n.contr.Idx) :
    (dot_S5000x64_S64x32_S5000x32_1_0_0_1_n_n.rhsIdx j q 0).val = (q ⟨0, by decide⟩).val :=
  dot_S5000x64_S64x32_S5000x32_1_0_0_1_n_n.rhsIdx_val_of_single rfl j q
theorem tile_rhs_1 (j : S5000x32.Idx) (q : dot_S5000x64_S64x32_S5000x32_1_0_0_1_n_n.contr.Idx) :
    (dot_S5000x64_S64x32_S5000x32_1_0_0_1_n_n.rhsIdx j q 1).val = (j 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Row `j 0` of the tile of `h`, at column `k`. -/
abbrev tileRow (j : S5000x32.Idx) (k : Fin 64) : S5000x64.Idx := fun a => match a with
  | ⟨0, _⟩ => ⟨(j 0).val, (j 0).isLt⟩
  | ⟨1, _⟩ => ⟨k.val, k.isLt⟩
/-- Column `j 1` of the weights, at row `k`. -/
abbrev weightCol (j : S5000x32.Idx) (k : Fin 64) : S64x32.Idx := fun a => match a with
  | ⟨0, _⟩ => ⟨k.val, k.isLt⟩
  | ⟨1, _⟩ => ⟨(j 1).val, (j 1).isLt⟩

/-- What the body stores, at an entry of the tile: the cast to the same shape and the narrowing to bf16 are the
    identity on extended reals and the accumulator is zero, so the entry is the row of the tile of `h` times the
    column of the weights. -/
theorem tile_product (hb : Vec Ideal S5000x64 .f32) (wb : Vec Ideal S64x32 .f32) (j : S5000x32.Idx) :
    k1_pay1 (F := Ideal) hb wb j = ∑ k : Fin 64, hb (tileRow j k) * wb (weightCol j k) := by
  unfold k1_pay1
  show FloatOps.matmul (F := Ideal) dot_S5000x64_S64x32_S5000x32_1_0_0_1_n_n none (shapeCast S5000x64 hb shapeCasts_S5000x64_S5000x64) wb (constant (F := Ideal) S5000x32 .f32 0x00000000#32) j = _
  rw [shapeCast_self]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx j ((ValueIdx.contrEquiv1 dot_S5000x64_S64x32_S5000x32_1_0_0_1_n_n 64 rfl rfl).symm k) = tileRow j k := funext fun a => Fin.ext (by
    match a with
    | ⟨0, _⟩ => exact tile_lhs_0 _ _
    | ⟨1, _⟩ => exact (tile_lhs_1 _ _).trans hk)
  have er : dot_S5000x64_S64x32_S5000x32_1_0_0_1_n_n.rhsIdx j ((ValueIdx.contrEquiv1 dot_S5000x64_S64x32_S5000x32_1_0_0_1_n_n 64 rfl rfl).symm k) = weightCol j k := funext fun a => Fin.ext (by
    match a with
    | ⟨0, _⟩ => exact (tile_rhs_0 _ _).trans hk
    | ⟨1, _⟩ => exact tile_rhs_1 _ _)
  rw [el, er]

/-! ## The whole product as a finite sum -/

theorem full_lhs_0 (i : S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 0).val = (i 0).val := by
  unfold DotDims.lhsIdx
  rw [dif_neg (show ¬(0 : Fin S100000x64.rank) ∈ Cert.ReferenceIdeal.dot_S100000x64_S64x32_S100000x32_1_0_0_1_n_n.lhsBatch by decide), dif_pos (show (0 : Fin S100000x64.rank) ∈ Cert.ReferenceIdeal.dot_S100000x64_S64x32_S100000x32_1_0_0_1_n_n.lhsNonContracting by decide)]
  rfl
theorem full_lhs_1 (i : S100000x32.Idx) (q : Cert.ReferenceIdeal.dot_S100000x64_S64x32_S100000x32_1_0_0_1_n_n.contr.Idx) :
    (Cert.ReferenceIdeal.dot_S100000x64_S64x32_S100000x32_1_0_0_1_n_n.lhsIdx i q 1).val = (q ⟨0, by decide⟩).val :=
  Cert.ReferenceIdeal.dot_S100000x64_S64x32_S100000x32_1_0_0_1_n_n.lhsIdx_val_of_single rfl i q
theorem full_rhs_0 (i : S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 0).val = (q ⟨0, by decide⟩).val :=
  Cert.ReferenceIdeal.dot_S100000x64_S64x32_S100000x32_1_0_0_1_n_n.rhsIdx_val_of_single rfl i q
theorem full_rhs_1 (i : S100000x32.Idx) (q : Cert.ReferenceIdeal.dot_S100000x64_S64x32_S100000x32_1_0_0_1_n_n.contr.Idx) :
    (Cert.ReferenceIdeal.dot_S100000x64_S64x32_S100000x32_1_0_0_1_n_n.rhsIdx i q 1).val = (i 1).val := by
  unfold DotDims.rhsIdx
  rw [dif_neg (show ¬(1 : Fin S64x32.rank) ∈ Cert.ReferenceIdeal.dot_S100000x64_S64x32_S100000x32_1_0_0_1_n_n.rhsBatch by decide), dif_pos (show (1 : Fin S64x32.rank) ∈ Cert.ReferenceIdeal.dot_S100000x64_S64x32_S100000x32_1_0_0_1_n_n.rhsNonContracting by decide)]
  rfl

/-- Row `i 0` of `h`, at column `k`. -/
abbrev fullRow (i : S100000x32.Idx) (k : Fin 64) : S100000x64.Idx := fun a => match a with
  | ⟨0, _⟩ => ⟨(i 0).val, (i 0).isLt⟩
  | ⟨1, _⟩ => ⟨k.val, k.isLt⟩
/-- Column `i 1` of the weights, at row `k`. -/
abbrev fullCol (i : S100000x32.Idx) (k : Fin 64) : S64x32.Idx := fun a => match a with
  | ⟨0, _⟩ => ⟨k.val, k.isLt⟩
  | ⟨1, _⟩ => ⟨(i 1).val, (i 1).isLt⟩

/-- The host's product of the whole arrays, at an entry: row times column. -/
theorem full_product (h : FVec Ideal S100000x64 .f32) (w : FVec Ideal S64x32 .f32) (i : S100000x32.Idx) :
    Host.dotGeneral (F := Ideal) Cert.ReferenceIdeal.dot_S100000x64_S64x32_S100000x32_1_0_0_1_n_n none h w i = ∑ k : Fin 64, h (fullRow i k) * w (fullCol i k) := by
  simp only [Host.dotGeneral]
  rw [Ideal.dotGeneral_apply, ← Equiv.sum_comp (ValueIdx.contrEquiv1 Cert.ReferenceIdeal.dot_S100000x64_S64x32_S100000x32_1_0_0_1_n_n 64 rfl rfl).symm]
  refine Finset.sum_congr rfl fun k _ => ?_
  have hk := ValueIdx.contrEquiv1_symm_val Cert.ReferenceIdeal.dot_S100000x64_S64x32_S100000x32_1_0_0_1_n_n 64 rfl rfl k
  have el : Cert.ReferenceIdeal.dot_S100000x64_S64x32_S100000x32_1_0_0_1_n_n.lhsIdx i ((ValueIdx.contrEquiv1 Cert.ReferenceIdeal.dot_S100000x64_S64x32_S100000x32_1_0_0_1_n_n 64 rfl rfl).symm k) = fullRow i k := funext fun a => Fin.ext (by
    match a with
    | ⟨0, _⟩ => exact full_lhs_0 _ _
    | ⟨1, _⟩ => exact (full_lhs_1 _ _).trans hk)
  have er : Cert.ReferenceIdeal.dot_S100000x64_S64x32_S100000x32_1_0_0_1_n_n.rhsIdx i ((ValueIdx.contrEquiv1 Cert.ReferenceIdeal.dot_S100000x64_S64x32_S100000x32_1_0_0_1_n_n 64 rfl rfl).symm k) = fullCol i k := funext fun a => Fin.ext (by
    match a with
    | ⟨0, _⟩ => exact (full_rhs_0 _ _).trans hk
    | ⟨1, _⟩ => exact full_rhs_1 _ _)
  rw [el, er]

/-! ## From tiles to the array -/

variable (V : (c : Dev nD) → (b : Ref sig .tc) → Buf (Elt Ideal) ((c : Thread nD τ).loc b))

/-- The printed index maps over the grid: the tile of `h` moves with the output tile down the rows, the weights
    stay, and both column block indices are 0. -/
theorem tile_indices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every one of the 20 row tiles is some point's. -/
theorem tile_onto : ∀ q : Fin 20, ∃ t : Fin cfg1.N, win1_2.index t = ![q.val, 0] :=
  (by decide +kernel : ∀ q : Fin 20, ∃ t : Fin grid1.N, win1_2.index t = ![q.val, 0])

/-- What point `t` writes back is tile `t` of the whole product of the arrays the region found. -/
theorem tile_written (c : Dev nD) (t : Fin cfg1.N) :
    (dat1 V c).flushed 2 t
      = ((cfg1.win 2).blk t).view.read (Elt Ideal) (Host.dotGeneral (F := Ideal) (φ₁ := .f32) (φ₂ := .f32) Cert.ReferenceIdeal.dot_S100000x64_S64x32_S100000x32_1_0_0_1_n_n none (V c main_v47) (V c main_arg4)) := by
  show (cfg1.win 2).cut (grid1.coords t) ((dat1 V c).after 2 t) = _
  rw [after1_2]
  unfold out1_2
  rw [View.canon_unit_zero origin]
  simp only [View.ld_unit_zero (S := S5000x64) origin, View.ld_unit_zero (S := S64x32) origin]
  obtain ⟨e0, e1, e2, e3, e4⟩ := tile_indices t
  funext j
  refine (tile_product (iblk1 V c 0 t) (iblk1 V c 1 t) j).trans ?_
  refine Eq.trans ?_ (full_product (V c main_v47) (V c main_arg4) (((cfg1.win 2).blk t).view.emb j)).symm
  refine Finset.sum_congr rfl fun k _ => ?_
  have hx : iblk1 V c 0 t (tileRow j k) = V c main_v47 (fullRow (((cfg1.win 2).blk t).view.emb j) k) := by
    show V c main_v47 (((cfg1.win 0).blk t).view.emb (tileRow j k)) = _
    refine congrArg (V c main_v47) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  have hw : iblk1 V c 1 t (weightCol j k) = V c main_arg4 (fullCol (((cfg1.win 2).blk t).view.emb j) k) := by
    show V c main_arg4 (((cfg1.win 1).blk t).view.emb (weightCol j k)) = _
    refine congrArg (V c main_arg4) (funext fun a => Fin.ext ?_)
    match a with
    | ⟨0, _⟩ => show win1_1.index t (0 : Fin 2) * 64 + 1 * k.val = k.val; omega
    | ⟨1, _⟩ => show win1_1.index t (1 : Fin 2) * 32 + 1 * (j 1).val = win1_2.index t (1 : Fin 2) * 32 + 1 * (j 1).val; omega
  rw [hx, hw]

/-- An index of the result is in point `t`'s tile iff each coordinate is in the tile's range on its axis. -/
theorem mem_tile (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v48).slice (win1_2.rect t)).set ↔ _
  rw [View.set_slice_whole, Rect.mem_set_unit]
  exact Iff.rfl

/-- Row `r` lies in tile `r / 5000`: the tiles cover the result. -/
theorem tiles_cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := tile_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_tile]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

/-- THE ARRAY the second region leaves: the whole product `h · W2` of the arrays it found. -/
theorem product_array (c : Dev nD) :
    (dat1 V c).arrAt 2 cfg1.N = Host.dotGeneral (F := Ideal) (φ₁ := .f32) (φ₂ := .f32) Cert.ReferenceIdeal.dot_S100000x64_S64x32_S100000x32_1_0_0_1_n_n none (V c main_v47) (V c main_arg4) :=
  (dat1 V c).arrAt_eq_of_cover 2 _ (fun t _ => tile_written V c t) tiles_cover

end Cert.KernelIdeal.RowTiles1

end
-- ==== Proof.HostChains.lean ====
/-
  The host chains around the two products.

  @main of the kernel's program is the reference's @main with each of its two `dot_general`s replaced by a
  pallas_call: the edge lists with self loops (`main_v3`, `main_v6`), then the first product, then the first
  graph convolution's host operations (degrees by a scatter-add of ones, their inverse square roots where the degree
  is positive, the gathered rows scaled by the edge weights and scatter-added, the bias, the relu), then the second
  product, then the second convolution's host operations and bias. So IF each region leaves, in its output array, the
  host's product of the two arrays it read, the result buffer at the end of the kernel's program is the reference's
  composed term of the arguments: the same operations applied to the same values, in the same order. The host chains
  are never opened: each stretch is folded to its operations' composed term and the two sides are compared as they
  stand, for any float family.
-/
import proofs.«141732_j10264971837865_1_alg».proof.Proof.Gen.KernelIdeal.Frame
import proofs.«141732_j10264971837865_1_alg».proof.Proof.ReferenceRun

set_option maxRecDepth 16384

noncomputable section

namespace Cert.KernelIdeal.HostChains

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- What the first region leaves in `main_v7`, given that its output array is the host's product of its two
    input arrays as it found them. -/
theorem first_product (c : Dev nD)
    (h0 : (dat0 (V1 m ρ) c).arrAt 2 cfg0.N = Host.dotGeneral (F := F) Cert.ReferenceIdeal.dot_S100000x128_S128x64_S100000x64_1_0_0_1_n_n none (V1 m ρ c main_arg0) (V1 m ρ c main_arg2)) :
    W2 m ρ c (Proc.devRef .tc main_v7)
      = Host.dotGeneral (F := F) Cert.ReferenceIdeal.dot_S100000x128_S128x64_S100000x64_1_0_0_1_n_n none (W1 m ρ c (Proc.devRef .tc main_arg0)) (W1 m ρ c (Proc.devRef .tc main_arg2)) :=
  (W2_arr m ρ c 2).trans h0

/-- The same for the second region and `main_v48`. -/
theorem second_product (c : Dev nD)
    (h1 : (dat1 (V6 m ρ) c).arrAt 2 cfg1.N = Host.dotGeneral (F := F) Cert.ReferenceIdeal.dot_S100000x64_S64x32_S100000x32_1_0_0_1_n_n none (V6 m ρ c main_v47) (V6 m ρ c main_arg4)) :
    W7 m ρ c (Proc.devRef .tc main_v48)
      = Host.dotGeneral (F := F) Cert.ReferenceIdeal.dot_S100000x64_S64x32_S100000x32_1_0_0_1_n_n none (W6 m ρ c (Proc.devRef .tc main_v47)) (W6 m ρ c (Proc.devRef .tc main_arg4)) :=
  (W7_arr m ρ c 2).trans h1

set_option maxHeartbeats 40000000 in
/-- The kernel program's result buffer, after the last host stretch, holds the reference's composed term of the
    arguments — for any float family, given the two products and memories agreeing on the arguments. -/
theorem result_eq (c : Dev nD)
    (m' : (ℓ : Loc Cert.ReferenceIdeal.nD Cert.ReferenceIdeal.τ Cert.ReferenceIdeal.sig) → Buf (Elt F) ℓ)
    (h0 : (dat0 (V1 m ρ) c).arrAt 2 cfg0.N = Host.dotGeneral (F := F) Cert.ReferenceIdeal.dot_S100000x128_S128x64_S100000x64_1_0_0_1_n_n none (V1 m ρ c main_arg0) (V1 m ρ c main_arg2))
    (h1 : (dat1 (V6 m ρ) c).arrAt 2 cfg1.N = Host.dotGeneral (F := F) Cert.ReferenceIdeal.dot_S100000x64_S64x32_S100000x32_1_0_0_1_n_n none (V6 m ρ c main_v47) (V6 m ρ c main_arg4))
    (a0 : m' ((c.tc : Thread Cert.ReferenceIdeal.nD Cert.ReferenceIdeal.τ).loc Cert.ReferenceIdeal.main_arg0) = m ((c.tc : Thread nD τ).loc main_arg0))
    (a1 : m' ((c.tc : Thread Cert.ReferenceIdeal.nD Cert.ReferenceIdeal.τ).loc Cert.ReferenceIdeal.main_arg1) = m ((c.tc : Thread nD τ).loc main_arg1))
    (a2 : m' ((c.tc : Thread Cert.ReferenceIdeal.nD Cert.ReferenceIdeal.τ).loc Cert.ReferenceIdeal.main_arg2) = m ((c.tc : Thread nD τ).loc main_arg2))
    (a3 : m' ((c.tc : Thread Cert.ReferenceIdeal.nD Cert.ReferenceIdeal.τ).loc Cert.ReferenceIdeal.main_arg3) = m ((c.tc : Thread nD τ).loc main_arg3))
    (a4 : m' ((c.tc : Thread Cert.ReferenceIdeal.nD Cert.ReferenceIdeal.τ).loc Cert.ReferenceIdeal.main_arg4) = m ((c.tc : Thread nD τ).loc main_arg4))
    (a5 : m' ((c.tc : Thread Cert.ReferenceIdeal.nD Cert.ReferenceIdeal.τ).loc Cert.ReferenceIdeal.main_arg5) = m ((c.tc : Thread nD τ).loc main_arg5)) :
    W10 m ρ c (Proc.devRef .tc main_v87) = Cert.ReferenceIdeal.RunP.res_main_v87 m' c := by
  -- the last stretch, over what the second region leaves
  show StableHlo.after hostOps2_2 (StableHlo.after hostOps2_1 (StableHlo.after hostOps2 (W7 m ρ c))) (Proc.devRef .tc main_v87) = _
  after_results_simp
  rw [second_product m ρ c h1, W7_of_ne m ρ c main_v6 (by decide), W7_of_ne m ρ c main_v3 (by decide),
    W7_of_ne m ρ c main_arg5 (by decide)]
  -- the stretch between the regions, over what the first region leaves
  dsimp only [W6, W5, W4, W3]
  after_results_simp
  rw [first_product m ρ c h0, W2_of_ne m ρ c main_v6 (by decide), W2_of_ne m ρ c main_v3 (by decide),
    W2_of_ne m ρ c main_arg3 (by decide), W2_of_ne m ρ c main_arg4 (by decide), W2_of_ne m ρ c main_arg5 (by decide)]
  -- the first stretch: the edge lists with their self loops
  dsimp only [W1]
  after_results
  -- the reference's composed term, at arguments that agree
  unfold Cert.ReferenceIdeal.RunP.res_main_v87
  rw [a0, a1, a2, a3, a4, a5]
  rfl

end Cert.KernelIdeal.HostChains

end
-- ==== Proof.lean ====
/-
  A two-layer graph convolution: the kernel's program against its jnp reference, over the extended reals.

  Both programs compute, for node features `x : [100000, 128]`, an edge list `edge_index : [2, 1600000]` and weights
  `W1 : [128, 64]`, `b1 : [64]`, `W2 : [64, 32]`, `b2 : [32]`,
      z = conv (relu (conv x W1 b1)) W2 b2,      conv y W b = A · (y · W) + b,
  where `A` is the normalised adjacency with self loops: the degrees are a scatter-add of ones over the destinations,
  their inverse square roots (0 where the degree is not positive) weigh each edge, and the rows of `y · W` gathered at
  the sources are scaled and scatter-added at the destinations. The two programs apply the SAME host operations in the
  same order; they differ only in the two dense products `x · W1` and `h · W2`, which the reference computes with the
  host's `dot_general` and the kernel's program with a pallas_call over 20 row tiles of 5000 rows, each tile the
  product of a tile of the left operand with the whole right operand (narrowed to bf16, which on extended reals is the
  identity, and accumulated from zero).

  So the certificate is: each region's output array is the host's product of its two input arrays (RowTiles0,
  RowTiles1: a tile's entry and the whole product's entry are the same finite sum over the contracted axis, and the
  tiles cover the rows); hence the kernel program's result buffer holds the reference's composed term of the
  arguments (HostChains: the host operations are folded, never opened, and the two sides compared as they stand);
  the two runs (KernelRun, ReferenceRun) carry those values. No step regroups a sum or moves a factor across one, so
  the inputs' finiteness is never used. The ideal pass rewrote nothing, so `preserves` is `True`.
-/
import proofs.«141732_j10264971837865_1_alg».proof.Defs
import proofs.«141732_j10264971837865_1_alg».proof.Proof.Gen.Kernel
import proofs.«141732_j10264971837865_1_alg».proof.Proof.Gen.Kernel.Skeleton
import proofs.«141732_j10264971837865_1_alg».proof.Proof.Gen.Kernel.Launch
import proofs.«141732_j10264971837865_1_alg».proof.Proof.Gen.Kernel.Points
import proofs.«141732_j10264971837865_1_alg».proof.Proof.Gen.Kernel.Frame
import proofs.«141732_j10264971837865_1_alg».proof.Proof.Gen.KernelIdeal
import proofs.«141732_j10264971837865_1_alg».proof.Proof.Gen.KernelIdeal.Skeleton
import proofs.«141732_j10264971837865_1_alg».proof.Proof.Gen.KernelIdeal.Launch
import proofs.«141732_j10264971837865_1_alg».proof.Proof.Gen.KernelIdeal.Points
import proofs.«141732_j10264971837865_1_alg».proof.Proof.Gen.KernelIdeal.Frame
import proofs.«141732_j10264971837865_1_alg».proof.Proof.Gen.ReferenceIdeal
import proofs.«141732_j10264971837865_1_alg».proof.Proof.Gen.Pre_finite_inputs
import proofs.«141732_j10264971837865_1_alg».proof.Proof.KernelRun
import proofs.«141732_j10264971837865_1_alg».proof.Proof.ReferenceRun
import proofs.«141732_j10264971837865_1_alg».proof.Proof.RowTiles0
import proofs.«141732_j10264971837865_1_alg».proof.Proof.RowTiles1
import proofs.«141732_j10264971837865_1_alg».proof.Proof.HostChains
import Idealize.ShloMosaic.Adequacy
import Idealize.ShloMosaic.Init

noncomputable section

namespace Cert.Proof

open Idealize.ShloMosaic Idealize.SL.Sem

/-- The word-level program runs, and its arguments end as launched. -/
theorem frame_kernel : Cert.frame_Kernel := fun m ρ _ => Cert.Kernel.Gen.frame m ρ

/-- So does the program read over the extended reals. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- From memories agreeing on the arguments both programs end with the same result: the kernel program's result
    buffer, which its run leaves at the fold through @main's segments, is the reference's composed term, because
    each region left the host's product of the arrays it read. -/
theorem algebraic : Cert.algebraic_KernelIdeal_ReferenceIdeal := by
  intro m ρ m' ρ' _ hagree
  refine ⟨fun c => Cert.KernelIdeal.Gen.W10 m ρ c (Proc.devRef .tc Cert.KernelIdeal.main_v87),
    Cert.KernelIdeal.ResultRun.run_result (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨a0, a1, a2, a3, a4, a5⟩ := hagree c
  exact (Cert.KernelIdeal.HostChains.result_eq (F := Ideal) m ρ c m'
    (Cert.KernelIdeal.RowTiles0.product_array (Cert.KernelIdeal.Gen.V1 m ρ) c)
    (Cert.KernelIdeal.RowTiles1.product_array (Cert.KernelIdeal.Gen.V6 m ρ) c) a0 a1 a2 a3 a4 a5).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
